-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_T" .f32 0x41649249#32 ((134217728 / 9395241 : ℝ) : EReal)
  ∧ IdealRules.named_const.Statement Cert.KernelIdeal.κ "inv_T" .f32 0x41649249#32 ((134217728 / 9395241 : ℝ) : EReal)
  ∧ IdealRules.named_const.Statement Cert.KernelIdeal.κ "inv_T" .f32 0x41649249#32 ((134217728 / 9395241 : ℝ) : EReal)
  ∧ IdealRules.named_const.Statement Cert.KernelIdeal.κ "inv_T" .f32 0x41649249#32 ((134217728 / 9395241 : ℝ) : EReal)
  ∧ IdealRules.named_const.Statement Cert.KernelIdeal.κ "inv_T" .f32 0x41649249#32 ((134217728 / 9395241 : ℝ) : EReal)
  ∧ IdealRules.named_const.Statement Cert.KernelIdeal.κ "inv_T" .f32 0x41649249#32 ((134217728 / 9395241 : ℝ) : EReal)
  ∧ IdealRules.named_const.Statement Cert.KernelIdeal.κ "inv_T" .f32 0x41649249#32 ((134217728 / 9395241 : ℝ) : EReal)
  ∧ IdealRules.named_const.Statement Cert.KernelIdeal.κ "inv_T" .f32 0x41649249#32 ((134217728 / 9395241 : ℝ) : EReal)
  ∧ IdealRules.named_const.Statement Cert.KernelIdeal.κ "inv_T" .f32 0x41649249#32 ((134217728 / 9395241 : ℝ) : EReal)
  ∧ IdealRules.named_const.Statement Cert.KernelIdeal.κ "inv_T" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S64x1x256 : Shape := ⟨3, ![64, 1, 256]⟩
abbrev S1x1x256 : Shape := ⟨3, ![1, 1, 256]⟩
abbrev S256x128 : Shape := ⟨2, ![256, 128]⟩
abbrev S256x1 : Shape := ⟨2, ![256, 1]⟩
abbrev S2048x128 : Shape := ⟨2, ![2048, 128]⟩
abbrev S256x2048 : Shape := ⟨2, ![256, 2048]⟩
abbrev S256 : Shape := ⟨1, ![256]⟩
abbrev S1x256 : Shape := ⟨2, ![1, 256]⟩
abbrev S_ : Shape := ⟨0, ![]⟩

abbrev nBuf : Space → Nat
  | .hbm => 7
  | .vmem => 3
  | .smem => 0
  | _ => 0

abbrev bufTy : (tb : Table) → Fin (tcTables nBuf tb) → BufTy
  | .hbm, ⟨0, _⟩ => ⟨S16384x128, .f32⟩
  | .hbm, ⟨1, _⟩ => ⟨S16384x128, .bf16⟩
  | .hbm, ⟨2, _⟩ => ⟨S64x1x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S16384x128, .bf16⟩
  | .local _ .vmem, ⟨1, _⟩ => ⟨S1x1x256, .f32⟩
  | .local _ .vmem, ⟨2, _⟩ => ⟨S1x1x256, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def k0_mult2 : BitVec 32 :=
  let c0_i32 : BitVec 32 := 0#32
  let c2048_i32 : BitVec 32 := 2048#32
  let v6 : BitVec 32 := Scalar.muli c0_i32 c2048_i32
  v6
def k0_off2 (c0_i32 : BitVec 32) : Fin 2 → Nat :=
  let c2048_i32 : BitVec 32 := 2048#32
  let v6 : BitVec 32 := Scalar.muli c0_i32 c2048_i32
  let v7 : BitVec 32 := v6
  let v8 : Index := Scalar.indexCast v7
  let c0_1 : Index := 0#32
  ![v8.toNat, 0]
def k0_mult3 : BitVec 32 :=
  let c1_i32 : BitVec 32 := 1#32
  let c2048_i32_5 : BitVec 32 := 2048#32
  let v20 : BitVec 32 := Scalar.muli c1_i32 c2048_i32_5
  v20
def k0_mult4 : BitVec 32 :=
  let c2_i32 : BitVec 32 := 2#32
  let c2048_i32_10 : BitVec 32 := 2048#32
  let v34 : BitVec 32 := Scalar.muli c2_i32 c2048_i32_10
  v34
def k0_mult5 : BitVec 32 :=
  let c3_i32 : BitVec 32 := 3#32
  let c2048_i32_15 : BitVec 32 := 2048#32
  let v48 : BitVec 32 := Scalar.muli c3_i32 c2048_i32_15
  v48
def k0_mult6 : BitVec 32 :=
  let c4_i32 : BitVec 32 := 4#32
  let c2048_i32_20 : BitVec 32 := 2048#32
  let v62 : BitVec 32 := Scalar.muli c4_i32 c2048_i32_20
  v62
def k0_mult7 : BitVec 32 :=
  let c5_i32 : BitVec 32 := 5#32
  let c2048_i32_25 : BitVec 32 := 2048#32
  let v76 : BitVec 32 := Scalar.muli c5_i32 c2048_i32_25
  v76
def k0_mult8 : BitVec 32 :=
  let c6_i32 : BitVec 32 := 6#32
  let c2048_i32_30 : BitVec 32 := 2048#32
  let v90 : BitVec 32 := Scalar.muli c6_i32 c2048_i32_30
  v90
def k0_mult9 : BitVec 32 :=
  let c7_i32 : BitVec 32 := 7#32
  let c2048_i32_35 : BitVec 32 := 2048#32
  let v104 : BitVec 32 := Scalar.muli c7_i32 c2048_i32_35
  v104
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bitsLt_bf16_f32 : FTy.bits .bf16 < FTy.bits .f32
  h_S256x128 : 0 < S256x128.numel
  shapeCasts_S256x128_S256x128 : S256x128.ShapeCasts S256x128
  h_S2048x128 : 0 < S2048x128.numel
  shapeCasts_S2048x128_S2048x128 : S2048x128.ShapeCasts S2048x128
  reduces_S256x2048_S256 : S256x2048.Reduces [1] S256
  shapeCasts_S256_S256x1 : S256.ShapeCasts S256x1
  transposes_S256x1_p1_0_S1x256 : S256x1.Transposes [1, 0] S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S64x1x256_S_d0_1_2 : S64x1x256.ReducesTo [0, 1, 2] S_
  h_S_ : 0 < S_.numel
  dot_S256x128_S2048x128_S256x2048_1_1_0_0_n_n_wf : DotDims.WF S256x128 S2048x128 S256x2048 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x128.size a ≤ S16384x128.size a
  k0_mult2_dvd : 2048 ∣ k0_mult2.toNat
  k0_off2_inb : ∀ (r : Fin 8), ∀ a, (k0_off2 (BitVec.ofNat 32 r.val)) a + S2048x128.size a ≤ S16384x128.size a
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  k0_mult9_dvd : 2048 ∣ k0_mult9.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S16384x128.size a
  hwx0_0 : ∀ i : grid0.Coords, EltTy.bits .bf16 = 32 ∨ (Rect.block (s := S16384x128) S16384x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S64x1x256.size a
  hwx0_1 : ∀ i : grid0.Coords, EltTy.bits .f32 = 32 ∨ (Rect.block (s := S64x1x256) S1x1x256.size (cc0_transform_1 i) (hinb0_1 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf

abbrev win0_0 : Pipeline.Window sig grid0 :=
  Pipeline.Window.ofSpec (Memref.whole main_v0) S16384x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x16384 : Shape := ⟨2, ![128, 16384]⟩
abbrev S16384x16384 : Shape := ⟨2, ![16384, 16384]⟩
abbrev S_ : Shape := ⟨0, ![]⟩
abbrev S16384 : Shape := ⟨1, ![16384]⟩

abbrev nBuf : Space → Nat
  | .hbm => 14
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x16384, .f32⟩
  | .hbm, ⟨2, _⟩ => ⟨S16384x16384, .f32⟩
  | .hbm, ⟨3, _⟩ => ⟨S_, .f32⟩
  | .hbm, ⟨4, _⟩ => ⟨S16384x16384, .f32⟩
  | .hbm, ⟨5, _⟩ => ⟨S16384x16384, .f32⟩
  | .hbm, ⟨6, _⟩ => ⟨S16384x16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S16384x128_S128x16384_1_0 : S16384x128.Transposes [1, 0] S128x16384
  bcast_S_S16384x16384 : S_.BroadcastsInDim S16384x16384 (![] : Fin 0 → Fin S16384x16384.rank)
  reducesTo_S16384x16384_S16384_d1 : S16384x16384.ReducesTo [1] S16384
  h_S_ : 0 < S_.numel
  reducesTo_S16384_S_d0 : S16384.ReducesTo [0] S_
  dot_S16384x128_S128x16384_S16384x16384_1_0_0_1_n_n_wf : DotDims.WF S16384x128 S128x16384 S16384x16384 [1] [0] [0] [1] [] []

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.Spec.lean ====
/-
  The mathematics of the uniformity loss, as plain functions of the embedding array over the extended reals.

  The input is an array `X` of 16384 rows of 128 features. The similarity of two rows is their inner product.
  The reference takes, for each row `R`, the logarithm of the sum over ALL rows `C` of `exp (sim R C / T)`, with `T`
  the binary fraction that the single-precision word of `0.07` encodes, and returns the mean of these 16384 numbers.
  The kernel walks the columns in eight chunks of 2048, multiplies each similarity by the reciprocal `1 / T`, shifts
  it DOWN by that same reciprocal before the exponential (so that no exponent is large for unit-norm rows), adds the
  eight chunk sums in order from zero, takes the logarithm and shifts the result back UP; its 16384 row values are
  laid out as 64 tiles of 256 and averaged. Since `log (e^(-c) · S) + c = log S` for a positive real `S`, the two
  agree whenever the entries of `X` are real numbers.
-/
import Idealize.ShloMosaic.PureOps.Ideal
import Idealize.ShloMosaic.Lib.ValueIdx

noncomputable section

open scoped BigOperators

namespace UniformLoss

open Idealize.ShloMosaic Idealize.ShloMosaic.ValueIdx

/-- The embeddings: 16384 rows of 128 features, each entry an extended real. -/
abbrev Emb : Type := (⟨2, ![16384, 128]⟩ : Shape).Idx → EReal

/-- Every entry is a real number. -/
def AllReal (X : Emb) : Prop := ∀ i, ∃ r : ℝ, X i = (r : EReal)

/-- The similarity of rows `R` and `C`: their inner product over the 128 features. -/
def sim (X : Emb) (R C : Fin 16384) : EReal := ∑ d : Fin 128, X (ix2 R d) * X (ix2 C d)

/-- The temperature the reference divides by: what the single-precision word of `0.07` encodes. -/
abbrev temp : EReal := Ideal.ofBits .f32 0x3D8F5C29#32

/-- The scale the kernel multiplies by: the exact reciprocal of that temperature, `2^27 / 9395241`. -/
abbrev invTemp : EReal := ((134217728 / 9395241 : ℝ) : EReal)

/-- Row `R` of the reference: `log ∑_C exp (sim R C / temp)` over all 16384 rows `C`. -/
def refRow (X : Emb) (R : Fin 16384) : EReal :=
  Ideal.log (∑ C : Fin 16384, Ideal.exp (Ideal.div (sim X R C) temp))

/-- Column `k` of chunk `j`: row `2048 j + k` of the array. -/
abbrev col (j : Fin 8) (k : Fin 2048) : Fin 16384 := ⟨2048 * j.val + k.val, by omega⟩

/-- One chunk of row `R` in the kernel: the sum over the chunk's 2048 columns of the SHIFTED exponentials
    `exp (sim · invTemp - invTemp)`. -/
def chunk (X : Emb) (R : Fin 16384) (j : Fin 8) : EReal :=
  ∑ k : Fin 2048, Ideal.exp (sim X R (col j k) * invTemp - invTemp)

/-- Row `R` of the kernel: the eight chunk sums added in order from zero, the logarithm, shifted back up. -/
def kerRow (X : Emb) (R : Fin 16384) : EReal :=
  Ideal.log ((((((((0 + chunk X R 0) + chunk X R 1) + chunk X R 2) + chunk X R 3) + chunk X R 4) + chunk X R 5)
    + chunk X R 6) + chunk X R 7) + invTemp

/-- Where entry `(t, 0, r)` of the kernel's 64 × 1 × 256 result comes from: row `256 t + r`. -/
def outRow (i : (⟨3, ![64, 1, 256]⟩ : Shape).Idx) : Fin 16384 :=
  ⟨256 * (i 0).val + (i 2).val, by
    have h0 : (i 0).val < 64 := (i 0).isLt
    have h2 : (i 2).val < 256 := (i 2).isLt
    omega⟩

/-- The reference's result: the mean of its row values (a sum from zero, divided by the word of `16384`). -/
def refMean (X : Emb) : EReal :=
  Ideal.div (0 + ∑ j : (⟨1, ![16384]⟩ : Shape).Idx, refRow X (j 0)) (Ideal.ofBits .f32 0x46800000#32)

/-- The kernel's result: the mean of its row values over the 64 × 1 × 256 layout. -/
def kerMean (X : Emb) : EReal :=
  Ideal.div (0 + ∑ i : (⟨3, ![64, 1, 256]⟩ : Shape).Idx, kerRow X (outRow i)) (Ideal.ofBits .f32 0x46800000#32)

end UniformLoss

end
-- ==== Proof.Analysis.lean ====
/-
  The analysis behind the uniformity loss: for an array of real entries the kernel's shifted, chunked
  log-sum-exp equals the reference's plain one, row by row, and so do the two means.

  Every similarity is a real number `s`. The temperature word is the real `9395241 / 2^27`, so dividing by it is
  multiplying by `c = 2^27 / 9395241`. The kernel's summand is `exp (s c - c) = exp (-c) · exp (s c)`; its eight
  chunk sums, added from zero, are the sum over all 16384 columns; the total `S = ∑ exp (s c)` is a positive real,
  so `log (exp (-c) · S) + c = log S`. The kernel's 64 × 1 × 256 layout lists every row exactly once, so the means agree.
-/
import proofs.«418132_j31619549233204_3_alg».proof.Proof.Spec

noncomputable section

open scoped BigOperators

namespace UniformLoss

open Idealize.ShloMosaic Idealize.ShloMosaic.ValueIdx

/-! ## Real numbers inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries every similarity is a real number. -/
theorem sim_real (X : Emb) (hX : AllReal X) (R C : Fin 16384) : ∃ s : ℝ, sim X R C = (s : EReal) := by
  choose x hx using hX
  refine ⟨∑ d : Fin 128, x (ix2 R d) * x (ix2 C d), ?_⟩
  rw [coe_finset_sum]
  unfold sim
  refine Finset.sum_congr rfl fun d _ => ?_
  rw [hx, hx, EReal.coe_mul]

/-! ## The temperature -/

/-- The word of `0.07` encodes `9395241 / 2^27`. -/
theorem temp_eq : temp = ((9395241 / 134217728 : ℝ) : EReal) := by
  simp [Ideal.ofBits, Ideal.ieee, -EReal.coe_mul]; norm_num

/-- Dividing by the temperature is multiplying by its reciprocal. -/
theorem div_temp (x : EReal) : Ideal.div x temp = x * invTemp := by
  rw [temp_eq, Ideal.div_coe (by norm_num)]
  norm_num

/-! ## Eight chunks of 2048 columns are all 16384 columns -/

/-- Chunk `j`, column `k` ↦ row `2048 j + k` is a bijection onto the 16384 rows. -/
def colEquiv : Fin 8 × Fin 2048 ≃ Fin 16384 where
  toFun p := col p.1 p.2
  invFun C := (⟨C.val / 2048, by omega⟩, ⟨C.val % 2048, by omega⟩)
  left_inv p := by
    rcases p with ⟨j, k⟩
    refine Prod.ext (Fin.ext ?_) (Fin.ext ?_)
    · show (2048 * j.val + k.val) / 2048 = j.val
      omega
    · show (2048 * j.val + k.val) % 2048 = k.val
      omega
  right_inv C := by
    refine Fin.ext ?_
    show 2048 * (C.val / 2048) + C.val % 2048 = C.val
    omega

/-- In any commutative monoid the eight chunk sums, added in order from zero, are the sum over all columns. -/
theorem chunks_sum {M : Type*} [AddCommMonoid M] (f : Fin 16384 → M) :
    (((((((0 + ∑ k : Fin 2048, f (col 0 k)) + ∑ k : Fin 2048, f (col 1 k)) + ∑ k : Fin 2048, f (col 2 k))
      + ∑ k : Fin 2048, f (col 3 k)) + ∑ k : Fin 2048, f (col 4 k)) + ∑ k : Fin 2048, f (col 5 k))
      + ∑ k : Fin 2048, f (col 6 k)) + ∑ k : Fin 2048, f (col 7 k) = ∑ C : Fin 16384, f C := by
  rw [← Equiv.sum_comp colEquiv f, Fintype.sum_prod_type, Fin.sum_univ_eight, zero_add]
  rfl

/-! ## One row -/

theorem kerRow_eq_refRow (X : Emb) (hX : AllReal X) (R : Fin 16384) : kerRow X R = refRow X R := by
  choose s hs using sim_real X hX R
  -- the scale as a real
  set c : ℝ := 134217728 / 9395241 with hc
  -- the reference's sum is the positive real S
  have hS : 0 < ∑ C : Fin 16384, Real.exp (s C * c) :=
    Finset.sum_pos (fun C _ => Real.exp_pos _) ⟨0, Finset.mem_univ _⟩
  have href : ∑ C : Fin 16384, Ideal.exp (Ideal.div (sim X R C) temp)
      = ((∑ C : Fin 16384, Real.exp (s C * c) : ℝ) : EReal) := by
    rw [coe_finset_sum]
    refine Finset.sum_congr rfl fun C _ => ?_
    rw [div_temp, hs C, ← EReal.coe_mul, Ideal.exp_coe]
  -- the kernel's sum is exp (-c) · S
  have hker : ∑ C : Fin 16384, Ideal.exp (sim X R C * invTemp - invTemp)
      = ((Real.exp (-c) * ∑ C : Fin 16384, Real.exp (s C * c) : ℝ) : EReal) := by
    rw [Finset.mul_sum, coe_finset_sum]
    refine Finset.sum_congr rfl fun C _ => ?_
    rw [hs C, ← EReal.coe_mul, ← EReal.coe_sub, Ideal.exp_coe, ← Real.exp_add, neg_add_eq_sub]
  unfold kerRow refRow chunk
  rw [chunks_sum (fun C => Ideal.exp (sim X R C * invTemp - invTemp)), hker, href,
    Ideal.log_coe, Ideal.log_coe, if_neg (not_le.mpr hS),
    if_neg (not_le.mpr (mul_pos (Real.exp_pos _) hS)),
    Real.log_mul (Real.exp_pos _).ne' hS.ne', Real.log_exp, ← EReal.coe_add, neg_add_cancel_comm]

/-! ## The mean -/

/-- The kernel's 64 × 1 × 256 layout lists the 16384 rows exactly once. -/
def outEquiv : (⟨3, ![64, 1, 256]⟩ : Shape).Idx ≃ (⟨1, ![16384]⟩ : Shape).Idx where
  toFun i := ix1 (outRow i)
  invFun j := ix3 (n0 := 64) (n1 := 1) (n2 := 256) ⟨(j 0).val / 256, by
      have h : (j 0).val < 16384 := (j 0).isLt
      omega⟩ 0 ⟨(j 0).val % 256, by omega⟩
  left_inv i := by
    have h0 : (i 0).val < 64 := (i 0).isLt
    have h1 : (i 1).val < 1 := (i 1).isLt
    have h2 : (i 2).val < 256 := (i 2).isLt
    rw [eq_ix3 i]
    funext a
    match a with
    | ⟨0, _⟩ =>
      refine Fin.ext ?_
      show (256 * (i 0).val + (i 2).val) / 256 = (i 0).val
      omega
    | ⟨1, _⟩ =>
      refine Fin.ext ?_
      show 0 = (i 1).val
      omega
    | ⟨2, _⟩ =>
      refine Fin.ext ?_
      show (256 * (i 0).val + (i 2).val) % 256 = (i 2).val
      omega
  right_inv j := by
    have h : (j 0).val < 16384 := (j 0).isLt
    rw [eq_ix1 j]
    funext a
    match a with
    | ⟨0, _⟩ =>
      refine Fin.ext ?_
      show 256 * ((j 0).val / 256) + (j 0).val % 256 = (j 0).val
      omega

theorem kerMean_eq_refMean (X : Emb) (hX : AllReal X) : kerMean X = refMean X := by
  have h : ∑ i : (⟨3, ![64, 1, 256]⟩ : Shape).Idx, kerRow X (outRow i)
      = ∑ j : (⟨1, ![16384]⟩ : Shape).Idx, refRow X (j 0) := by
    rw [← Equiv.sum_comp outEquiv (fun j => refRow X (j 0))]
    refine Finset.sum_congr rfl fun i _ => ?_
    rw [kerRow_eq_refRow X hX]
    rfl
  unfold kerMean refMean
  rw [h]

end UniformLoss

end
-- ==== Proof.Finite.lean ====
import proofs.«418132_j31619549233204_3_alg».proof.Proof.Gen.Pre_finite_inputs
import proofs.«418132_j31619549233204_3_alg».proof.Proof.Spec
import Idealize.ShloMosaic.Lib.ReduceAll
import Idealize.ShloMosaic.Lib.ValueIdx
import Idealize.ShloMosaic.PureOps.Ideal.Laws

/-
  The precondition read back.

  The printed predicate takes the absolute value of every entry, compares it (ordered, less than) with the word of
  plus infinity broadcast to the array's shape, and reduces the comparison bits by `and` over both axes from the
  constant 1. If the result is 1 then every comparison bit is 1, that is `max a (-a) < ⊤` for every entry `a`; an
  extended real with that property is neither `⊤` nor `⊥` (whose negation is `⊤`), hence a real number.
-/

noncomputable section

namespace Cert.Proof.Finite

open Idealize.ShloMosaic

/-- The result of a reduction over all axes has exactly one index. -/
instance subsingleton_scalarIdx : Subsingleton Cert.Pre_finite_inputs.S_.Idx :=
  ⟨fun _ _ => funext fun d => d.elim0⟩

/-- The word `0x7F800000` (all-ones exponent, zero fraction, sign clear) is plus infinity. -/
theorem ofBits_posInf : Ideal.ofBits .f32 0x7F800000#32 = (⊤ : EReal) := by
  simp [Ideal.ofBits, Ideal.ieee]

/-- An extended real whose absolute value is below `⊤` is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- A comparison bit `less than` that is 1 says the strict inequality holds. -/
theorem lt_of_cmp_olt {a b : EReal} (h : Ideal.cmp .olt a b = 1#1) : a < b := by
  by_contra hn
  simp [Ideal.cmp, hn] at h

theorem allReal_of_pre (x : Idealize.ShloMosaic.FVec Idealize.ShloMosaic.Ideal Cert.Pre_finite_inputs.S16384x128 .f32)
    (h : Cert.Pre_finite_inputs.fn (F := Idealize.ShloMosaic.Ideal) x = fun _ => 1#1) : UniformLoss.AllReal x := by
  intro i
  have e := congrFun h ValueIdx.ix0
  dsimp only [Cert.Pre_finite_inputs.fn] at e
  have b := Host.reduce_andi_all _ _ _ _ _ e i
  rw [ValueIdx.cmpf_apply, Ideal.cmpf_def] at b
  have lt := lt_of_cmp_olt b
  have hb : broadcastInDim Cert.Pre_finite_inputs.S16384x128 ![] Cert.Pre_finite_inputs.Facts.bcast_S_S16384x128
      (constant (F := Ideal) Cert.Pre_finite_inputs.S_ .f32 0x7F800000#32) i = (⊤ : EReal) := ofBits_posInf
  rw [hb] at lt
  exact real_of_abs_lt_top (x i) lt

end Cert.Proof.Finite

end
-- ==== Proof.RefValue.lean ====
import proofs.«418132_j31619549233204_3_alg».proof.Proof.Gen.ReferenceIdeal.Read
import proofs.«418132_j31619549233204_3_alg».proof.Proof.Spec
import Idealize.ShloMosaic.Lib.ValueIdx
import Idealize.ShloMosaic.PureOps.Ideal.Laws

/-
  The reference program read index by index.

  Its result is a division of a sum by the word of 16384; the sum runs from zero over the 16384 row values; a row
  value is the logarithm of a sum from zero over all 16384 columns of the exponential of an inner product (over the
  128 features, the second factor read through a transpose) divided by the word of the temperature. This is, term
  by term, the mean of the row values of the specification: no property of the input is used.
-/

noncomputable section

open scoped BigOperators

namespace Cert.ReferenceIdeal.RefValue

open Cert.ReferenceIdeal Cert.ReferenceIdeal.Gen Cert.ReferenceIdeal.Read Idealize.ShloMosaic
  Idealize.ShloMosaic.ValueIdx

/-- Entry `(R, C)` of the matrix of inner products, the second factor read through the transpose, is the
    similarity of rows `R` and `C`. -/
theorem gram_eq (X : UniformLoss.Emb) (i : S16384x16384.Idx) :
    val_main_v1 (F := Ideal) X i = UniformLoss.sim X (i 0) (i 1) := by
  rw [val_main_v1_apply]
  unfold UniformLoss.sim
  refine Finset.sum_congr rfl fun d _ => ?_
  rw [val_main_v0_apply]
  have e1 : lidx_main_v1 i d = ix2 (i 0) d :=
    funext fun a => Fin.ext (by match a with | ⟨0, _⟩ => rfl | ⟨1, _⟩ => rfl)
  have e2 : idx_main_v0 (ridx_main_v1 i d) = ix2 (i 1) d :=
    funext fun a => Fin.ext (by match a with | ⟨0, _⟩ => rfl | ⟨1, _⟩ => rfl)
  rw [e1, e2]
  rfl

/-- Row `j` of the reference: the logarithm of the sum over all columns of the exponentials of the scaled
    similarities. The sum's initial value is the word of zero, which adds nothing. -/
theorem row_eq (X : UniformLoss.Emb) (j : S16384.Idx) :
    val_main_v6 (F := Ideal) X j = UniformLoss.refRow X (j 0) := by
  rw [val_main_v6_apply, val_main_v5_apply, val_main_cst_0_apply]
  simp only [Ideal.hostUnary_log_def, Ideal.ofBits_def, Ideal.ofBits_zero_f32, zero_add]
  unfold UniformLoss.refRow
  refine congrArg Ideal.log (Finset.sum_congr rfl fun k _ => ?_)
  rw [val_main_v4_apply, val_main_v3_apply, val_main_v2_apply, val_main_cst_apply, gram_eq]
  simp only [Ideal.hostUnary_exp_def, Ideal.hostDivf_def, Ideal.ofBits_def]
  rfl

/-- The reference's result, at its one index, is the mean of the specification's row values. -/
theorem result_eq (X : UniformLoss.Emb) :
    Cert.ReferenceIdeal.Read.val_main_v8 (F := Idealize.ShloMosaic.Ideal) X = fun _ => UniformLoss.refMean X := by
  funext i
  rw [val_main_v8_apply, val_main_v7_apply, val_main_cst_1_apply, val_main_cst_2_apply]
  simp only [Ideal.hostDivf_def, Ideal.ofBits_def, Ideal.ofBits_zero_f32, row_eq]
  rfl

end Cert.ReferenceIdeal.RefValue

end
-- ==== Proof.KernelTile.lean ====
/-
  One tile of the kernel's result, as a value.

  At grid point `i` the body loads rows `256 i … 256 i + 255` of the staged array and then, chunk by chunk, all of
  its 16384 rows in eight blocks of 2048. For each chunk it forms the 256 × 2048 matrix of inner products (a product
  into the zero accumulator), multiplies by the scale, subtracts the scale, exponentiates and sums along the chunk;
  the eight lane sums are added in order onto a zero column, the logarithm is taken, the scale is added back, and the
  column of 256 numbers is turned into a row and stored as the point's 1 × 1 × 256 block.
  Read over the extended reals, with the scale at the value the certificate's table names, lane `r` of that block is
  `log (0 + c₀ + … + c₇) + 1/T` with `c_j = ∑_k exp (⟨x_(256 i + r), x_(2048 j + k)⟩ · (1/T) - 1/T)`: the specification's
  `kerRow` at row `256 i + r`.
-/
import proofs.«418132_j31619549233204_3_alg».proof.Proof.Gen.KernelIdeal.Frame
import proofs.«418132_j31619549233204_3_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem

namespace Cert.KernelIdeal.TileValue

open Cert.KernelIdeal Cert.KernelIdeal.Gen Idealize.ShloMosaic.ValueIdx

variable {F : FTy → Type} [FloatOps F] [Named F]

theorem hz3 : (![0, 0, 0] : Fin 3 → Nat) = fun _ => 0 := funext fun a => by fin_cases a <;> rfl

/-- The kernel's scale: the named reciprocal of the temperature. -/
abbrev scale : F .f32 := Named.named κ "inv_T" (φ := .f32) 0x41649249#32

/-- The tile's value as a function of the row block and the eight column blocks it loads. -/
def tileOf (rows : Vec F S256x128 .bf16) (w0 w1 w2 w3 w4 w5 w6 w7 : Vec F S2048x128 .bf16) : Vec F S1x1x256 .f32 :=
  k0_pay6 (k0_pay1 rows) scale
    (k0_pay4 (k0_pay1 rows) scale (k0_pay2 rows w0 w1) (k0_pay3 w2) (constant S256x2048 .f32 0x00000000#32) w3 w4)
    (k0_pay5 w5) (constant S256x2048 .f32 0x00000000#32) w6 w7

/-- Column block `j` as the body loads it. -/
def colsLd (x0 : Vec F S16384x128 .bf16) (j : Fin 8) : Vec F S2048x128 .bf16 :=
  View.ld x0 (Rect.unit (s := S16384x128) (k0_off2 (BitVec.ofNat 32 j.val)) S2048x128.size (k0_off2_inb j))
/-- The row block the body loads at grid point `i`. -/
def rowsLd (i : grid0.Coords) (x0 : Vec F S16384x128 .bf16) : Vec F S256x128 .bf16 :=
  View.ld x0 (Rect.unit (s := S16384x128) (k0_off1 i) S256x128.size (k0_off1_inb i))

theorem out_A (c : Dev nD) (i : grid0.Coords) (a1 : Memref sig .tc .vmem S16384x128 .bf16) (h1 : a1.IsWhole)
    (a2 : Memref sig .tc .vmem S1x1x256 .f32) (h2 : a2.IsWhole) (x0 : Vec F S16384x128 .bf16) :
    out0_A_1 c i a1 h1 a2 h2 x0
      = tileOf (rowsLd i x0) (colsLd x0 0) (colsLd x0 1) (colsLd x0 2) (colsLd x0 3) (colsLd x0 4) (colsLd x0 5) (colsLd x0 6) (colsLd x0 7) := by
  unfold out0_A_1
  rw [View.read_writes_eq_canon _ _ _ (cover0_A_1 c i a1 h1 a2 h2 x0)]
  unfold kernelRun0_A
  dsimp only
  sl_unfold_words
  rw [View.canon_unit_zero hz3]
  simp only [View.readAt_eq_ld, h1.read_unread]
  rfl

/-! ## One chunk, read at an index, over the extended reals -/

/-- One chunk's lane sums: the similarities of the tile's 256 rows with the chunk's 2048 rows (a product into the zero
    accumulator), scaled and shifted by the named constant, exponentiated and summed along the chunk. -/
def chunkSums (rows : FVec F S256x128 .bf16) (w : Vec F S2048x128 .bf16) : FVec F S256x1 .f32 :=
  shapeCast S256x1
    (multiReduction .add [1] S256
      (exp (subf (mulf (matmul dot_S256x128_S2048x128_S256x2048_1_1_0_0_n_n none rows
          (shapeCast S2048x128 w shapeCasts_S2048x128_S2048x128) (constant S256x2048 .f32 0x00000000#32))
        (broadcast S256x2048 scale)) (broadcast S256x2048 scale)))
      0x00000000#32 reduces_S256x2048_S256 (.inl rfl) rfl)
    shapeCasts_S256_S256x1

/-- The named constant is the table's value at the ideal instance. -/
theorem scale_eq : (scale : Ideal .f32) = UniformLoss.invTemp :=
  IdealRules.named_const.ideal_named_scalar _ _ _ _ rfl

theorem lhs_dot_0 (i : S256x2048.Idx) (q : dot_S256x128_S2048x128_S256x2048_1_1_0_0_n_n.contr.Idx) :
    (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem lhs_dot_1 (i : S256x2048.Idx) (q : dot_S256x128_S2048x128_S256x2048_1_1_0_0_n_n.contr.Idx) :
    (dot_S256x128_S2048x128_S256x2048_1_1_0_0_n_n.lhsIdx i q 1).val = (q ⟨0, by decide⟩).val :=
  dot_S256x128_S2048x128_S256x2048_1_1_0_0_n_n.lhsIdx_val_of_single rfl i q
theorem rhs_dot_0 (i : S256x2048.Idx) (q : dot_S256x128_S2048x128_S256x2048_1_1_0_0_n_n.contr.Idx) :
    (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem rhs_dot_1 (i : S256x2048.Idx) (q : dot_S256x128_S2048x128_S256x2048_1_1_0_0_n_n.contr.Idx) :
    (dot_S256x128_S2048x128_S256x2048_1_1_0_0_n_n.rhsIdx i q 1).val = (q ⟨0, by decide⟩).val :=
  dot_S256x128_S2048x128_S256x2048_1_1_0_0_n_n.rhsIdx_val_of_single rfl i q

/-- The product into the zero accumulator at row `r`, column `k`: the inner product of the two rows. -/
theorem similarity_apply (rows : FVec Ideal S256x128 .bf16) (w : FVec Ideal S2048x128 .bf16) (r : Fin 256) (k : Fin 2048) :
    matmul dot_S256x128_S2048x128_S256x2048_1_1_0_0_n_n none rows w (constant S256x2048 .f32 0x00000000#32) (ix2 r k)
      = ∑ d : Fin 128, rows (ix2 r d) * w (ix2 k d) := by
  simp only [matmul]
  rw [Ideal.matmul_constant_zero_apply, ← Equiv.sum_comp (ValueIdx.contrEquiv1 dot_S256x128_S2048x128_S256x2048_1_1_0_0_n_n 128 rfl rfl).symm]
  refine Finset.sum_congr rfl fun d _ => ?_
  have hd := ValueIdx.contrEquiv1_symm_val dot_S256x128_S2048x128_S256x2048_1_1_0_0_n_n 128 rfl rfl d
  have el : dot_S256x128_S2048x128_S256x2048_1_1_0_0_n_n.lhsIdx (ix2 r k) ((ValueIdx.contrEquiv1 dot_S256x128_S2048x128_S256x2048_1_1_0_0_n_n 128 rfl rfl).symm d) = ix2 r d := funext fun a => Fin.ext (by
    match a with
    | ⟨0, _⟩ => exact lhs_dot_0 _ _
    | ⟨1, _⟩ => exact (lhs_dot_1 _ _).trans hd)
  have er : dot_S256x128_S2048x128_S256x2048_1_1_0_0_n_n.rhsIdx (ix2 r k) ((ValueIdx.contrEquiv1 dot_S256x128_S2048x128_S256x2048_1_1_0_0_n_n 128 rfl rfl).symm d) = ix2 k d := funext fun a => Fin.ext (by
    match a with
    | ⟨0, _⟩ => exact rhs_dot_0 _ _
    | ⟨1, _⟩ => exact (rhs_dot_1 _ _).trans hd)
  rw [el, er]

/-- One chunk's lane sum at row `r`: the sum over the chunk's 2048 rows of the shifted exponentials. -/
theorem chunkSums_apply (rows : FVec Ideal S256x128 .bf16) (w : Vec Ideal S2048x128 .bf16) (r : Fin 256) (z : Fin 1) :
    chunkSums rows w (ix2 r z)
      = ∑ k : Fin 2048, Ideal.exp ((∑ d : Fin 128, rows (ix2 r d) * w (ix2 k d)) * UniformLoss.invTemp - UniformLoss.invTemp) := by
  unfold chunkSums
  rw [shapeCast_apply _ shapeCasts_S256_S256x1 (ix2 r z) (ix1 r) (by
    rw [Shape.rowMajor_val_one, Shape.rowMajor_val_two]
    have hz : (z : Nat) = 0 := by omega
    show (r : Nat) = (r : Nat) * 1 + (z : Nat)
    omega)]
  refine (Ideal.multiReduction_add_single _ 0x00000000#32 reduces_S256x2048_S256 (.inl rfl) rfl (ix1 r)).trans ?_
  refine Finset.sum_congr rfl fun (k : Fin 2048) _ => ?_
  have e : reduces_S256x2048_S256.lift (ix1 r) k = ix2 r k := funext fun a => Fin.ext (by
    match a with
    | ⟨0, _⟩ => rfl
    | ⟨1, _⟩ => rfl)
  rw [e, shapeCast_self]
  show Ideal.exp (matmul dot_S256x128_S2048x128_S256x2048_1_1_0_0_n_n none rows w (constant S256x2048 .f32 0x00000000#32) (ix2 r k) * scale (F := Ideal) - scale (F := Ideal)) = _
  rw [scale_eq]
  exact congrArg (fun s => Ideal.exp (s * UniformLoss.invTemp - UniformLoss.invTemp)) (similarity_apply rows w r k)

/-! ## The whole tile -/

/-- The running sum of the eight chunks' lane sums, added in order onto the zero column. -/
def accAll (rows : FVec F S256x128 .bf16) (w0 w1 w2 w3 w4 w5 w6 w7 : Vec F S2048x128 .bf16) : FVec F S256x1 .f32 :=
  addf (addf (addf (addf (addf (addf (addf (addf (broadcast S256x1 (Scalar.ofBits .f32 0x00000000#32))
    (chunkSums rows w0)) (chunkSums rows w1)) (chunkSums rows w2)) (chunkSums rows w3)) (chunkSums rows w4))
    (chunkSums rows w5)) (chunkSums rows w6)) (chunkSums rows w7)

/-- The tile is the logarithm of that running sum plus the scale, laid along the lanes of a 1 × 1 × 256 block. -/
theorem tileOf_eq (rows : Vec F S256x128 .bf16) (w0 w1 w2 w3 w4 w5 w6 w7 : Vec F S2048x128 .bf16) :
    tileOf rows w0 w1 w2 w3 w4 w5 w6 w7
      = shapeCast S1x1x256 (transpose S1x256 [1, 0]
          (addf (log (accAll (shapeCast S256x128 rows shapeCasts_S256x128_S256x128) w0 w1 w2 w3 w4 w5 w6 w7))
            (broadcast S256x1 scale)) transposes_S256x1_p1_0_S1x256) shapeCasts_S1x256_S1x1x256 := rfl

/-- One chunk's lane sum as a number: over the chunk's 2048 rows, the shifted exponential of the scaled inner product. -/
def laneSum (rows : FVec Ideal S256x128 .bf16) (w : Vec Ideal S2048x128 .bf16) (r : Fin 256) : EReal :=
  ∑ k : Fin 2048, Ideal.exp ((∑ d : Fin 128, rows (ix2 r d) * w (ix2 k d)) * UniformLoss.invTemp - UniformLoss.invTemp)

/-- The tile at lane `r`. -/
theorem tileOf_apply (rows : Vec Ideal S256x128 .bf16) (w0 w1 w2 w3 w4 w5 w6 w7 : Vec Ideal S2048x128 .bf16)
    (z1 z2 : Fin 1) (r : Fin 256) :
    tileOf rows w0 w1 w2 w3 w4 w5 w6 w7 (ix3 z1 z2 r)
      = Ideal.log ((((((((0 + laneSum rows w0 r) + laneSum rows w1 r) + laneSum rows w2 r) + laneSum rows w3 r)
          + laneSum rows w4 r) + laneSum rows w5 r) + laneSum rows w6 r) + laneSum rows w7 r) + UniformLoss.invTemp := by
  rw [tileOf_eq]
  refine (shapeCast_apply _ shapeCasts_S1x256_S1x1x256 (ix3 z1 z2 r) (ix2 z2 r) (by
    rw [Shape.rowMajor_val_two, Shape.rowMajor_val_three]
    have h1 : (z1 : Nat) = 0 := by omega
    have h2 : (z2 : Nat) = 0 := by omega
    show (z2 : Nat) * 256 + (r : Nat) = ((z1 : Nat) * 1 + (z2 : Nat)) * 256 + (r : Nat)
    rw [h1, h2])).trans ?_
  refine (transpose_apply [1, 0] _ transposes_S256x1_p1_0_S1x256 (ix2 z2 r) (ix2 r z2) (fun b => by
    match b with
    | ⟨0, _⟩ => rfl
    | ⟨1, _⟩ => rfl)).trans ?_
  show Ideal.log (accAll (shapeCast S256x128 rows shapeCasts_S256x128_S256x128) w0 w1 w2 w3 w4 w5 w6 w7 (ix2 r z2)) + scale (F := Ideal) = _
  rw [scale_eq, shapeCast_self]
  unfold accAll laneSum
  simp only [addf_apply, chunkSums_apply]
  show Ideal.log ((((((((Ideal.ofBits .f32 0x00000000#32 + _) + _) + _) + _) + _) + _) + _) + _) + _ = _
  rw [Ideal.ofBits_zero_f32]

/-! ## The loads are rows of the staged array, so the tile is the specification's row value -/

/-- Row `r` of the tile at grid point `i` is row `256 i + r` of the array. -/
def tileRow (i : grid0.Coords) (r : Fin 256) : Fin 16384 :=
  ⟨256 * (i 0).val + r.val, by have h : (i 0).val < 64 := (i 0).isLt; omega⟩

theorem rowsLd_apply (i : grid0.Coords) (x0 : Vec F S16384x128 .bf16) (r : Fin 256) (d : Fin 128) :
    rowsLd i x0 (ix2 r d) = x0 (ix2 (tileRow i r) d) := by
  unfold rowsLd
  show x0 _ = x0 _
  refine congrArg x0 (funext fun a => Fin.ext ?_)
  match a with
  | ⟨0, _⟩ =>
    show (k0_off1 i) 0 + 1 * r.val = 256 * (i 0).val + r.val
    rw [k0_off1_eq]
    show 256 * (i 0).val + 1 * r.val = _
    omega
  | ⟨1, _⟩ =>
    show (k0_off1 i) 1 + 1 * d.val = d.val
    rw [k0_off1_eq]
    show 0 + 1 * d.val = _
    omega

theorem colsLd_apply (x0 : Vec F S16384x128 .bf16) (j : Fin 8) (k : Fin 2048) (d : Fin 128) :
    colsLd x0 j (ix2 k d) = x0 (ix2 (UniformLoss.col j k) d) := by
  unfold colsLd
  show x0 _ = x0 _
  refine congrArg x0 (funext fun a => Fin.ext ?_)
  match a with
  | ⟨0, _⟩ =>
    show (k0_off2 (BitVec.ofNat 32 j.val)) 0 + 1 * k.val = 2048 * j.val + k.val
    rw [k0_off2_eq]
    show 2048 * j.val + 1 * k.val = _
    omega
  | ⟨1, _⟩ =>
    show (k0_off2 (BitVec.ofNat 32 j.val)) 1 + 1 * d.val = d.val
    rw [k0_off2_eq]
    show 0 + 1 * d.val = _
    omega

/-- One chunk's lane sum over the loaded blocks is the specification's chunk. -/
theorem laneSum_loads (i : grid0.Coords) (x0 : Vec Ideal S16384x128 .bf16) (j : Fin 8) (r : Fin 256) :
    laneSum (rowsLd i x0) (colsLd x0 j) r = UniformLoss.chunk x0 (tileRow i r) j := by
  unfold laneSum UniformLoss.chunk UniformLoss.sim
  simp only [rowsLd_apply, colsLd_apply]

/-- The tile the body leaves at grid point `i`, at lane `r`, is the specification's kernel row value of row `256 i + r`. -/
theorem tile_eq_kerRow (i : grid0.Coords) (x0 : Vec Ideal S16384x128 .bf16) (z1 z2 : Fin 1) (r : Fin 256) :
    tileOf (rowsLd i x0) (colsLd x0 0) (colsLd x0 1) (colsLd x0 2) (colsLd x0 3) (colsLd x0 4) (colsLd x0 5)
        (colsLd x0 6) (colsLd x0 7) (ix3 z1 z2 r)
      = UniformLoss.kerRow x0 (tileRow i r) := by
  rw [tileOf_apply]
  simp only [laneSum_loads]
  rfl

end Cert.KernelIdeal.TileValue

end
-- ==== Proof.KernelInput.lean ====
import proofs.«418132_j31619549233204_3_alg».proof.Proof.Gen.KernelIdeal.Frame
import Idealize.ShloMosaic.Lib.Pipeline.Value
import Idealize.ShloMosaic.Lib.StableHlo.Run
import Idealize.ShloMosaic.Lib.ValueIdx

/-
  What the kernel's input window reads.

  Before the region the program narrows the argument's format into a second array, and the region's one input window
  has for its block the whole of that array, at block index (0, 0) at every grid point. Over the extended reals a
  narrowing format change is the identity, so the staged array is the argument; and a block that is the whole array,
  read through zero offsets, is the array. Hence at every grid point the input block is the argument itself.
-/

noncomputable section

namespace Cert.KernelIdeal.InputValue

open Cert.KernelIdeal Cert.KernelIdeal.Gen Idealize.ShloMosaic Idealize.ShloMosaic.TcCoe Idealize.SL.Sem

variable (m : (ℓ : Loc nD τ sig) → Buf (Elt Ideal) ℓ)

/-- The array the region finds staged is the argument: the one host operation before the region is the narrowing
    format change, the identity over the extended reals. -/
theorem staged_eq (c : Dev nD) : (V m c main_v0 : S16384x128.Idx → EReal) = m ((c : Thread nD τ).loc main_arg0) := by
  show StableHlo.after hostOps0 (fun b => m (c, b)) (Proc.devRef .tc main_v0) = _
  after_results
  rfl

/-- The input window's block index is (0, 0) at every grid point. -/
theorem index_zero : ∀ t : Fin grid0.N, win0_0.index t 0 = 0 ∧ win0_0.index t 1 = 0 := by decide +kernel

/-- The input window's block at every grid point is the argument: the block is the whole staged array. -/
theorem iblk_eq (c : Dev nD) (t : Fin cfg0.N) : (iblk m c 0 t : S16384x128.Idx → EReal) = m ((c : Thread nD τ).loc main_arg0) := by
  rw [← staged_eq m c]
  have hz : (fun a => win0_0.index t a * main_v0.ty.shape.size a) = fun _ => 0 := funext fun a => by
    match a with
    | ⟨0, _⟩ => show win0_0.index t 0 * _ = 0; rw [(index_zero t).1, Nat.zero_mul]
    | ⟨1, _⟩ => show win0_0.index t 1 * _ = 0; rw [(index_zero t).2, Nat.zero_mul]
  unfold iblk
  exact Memref.read_access_unit_zero (Elt Ideal) main_v0 hz (fun a => by rw [congrFun hz a]; simp) (V m c main_v0)

end Cert.KernelIdeal.InputValue

end
-- ==== Proof.KernelArray.lean ====
/-
  From the tiles to the kernel's result array.

  The result is a 64 × 1 × 256 array written in 64 blocks of 1 × 1 × 256: grid point `t` writes block `(t, 0, 0)`.
  What point `t` writes is its tile, whose lane `r` is the row value of row `256 t + r` of the argument (the staged
  array the body reads is the argument itself: a narrowing of the float format is the identity on extended reals, and
  the input's block is the whole array at every point). The 64 blocks tile the array, so after the run entry
  `(t, 0, r)` holds the row value of row `256 t + r`.
-/
import proofs.«418132_j31619549233204_3_alg».proof.Proof.KernelTile
import proofs.«418132_j31619549233204_3_alg».proof.Proof.KernelInput
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.TileValue Idealize.ShloMosaic.ValueIdx

variable (m : (ℓ : Loc nD τ sig) → Buf (Elt Ideal) ℓ) (ρ : Dev nD → PrngReg)

/-- The kernel's result array: entry `(t, 0, r)` is the row value of row `256 t + r` of the argument. -/
def rowsArr (c : Dev nD) : Buf (Elt Ideal) ((c : Thread nD τ).loc main_v1) :=
  fun i => UniformLoss.kerRow (m ((c : Thread nD τ).loc main_arg0)) (UniformLoss.outRow i)

/-- The output's block index at point `t` is `(t, 0, 0)`, and the point's one grid coordinate is `t`. -/
theorem idx_facts : ∀ t : Fin cfg0.N, win0_1.index t (0 : Fin 3) = t.val ∧ win0_1.index t (1 : Fin 3) = 0
    ∧ win0_1.index t (2 : Fin 3) = 0 ∧ ((grid0.coords t) 0).val = t.val :=
  (by decide +kernel : ∀ t : Fin grid0.N, _)

/-- What point `t` writes back is block `t` of the array of row values. -/
theorem flushed_eq (c : Dev nD) (t : Fin cfg0.N) :
    (dats m 0 c).flushed 1 t = ((cfg0.win 1).blk t).view.read (Elt Ideal) (rowsArr m c) := by
  show (cfg0.win 1).cut (grid0.coords t) ((dats m 0 c).after 1 t) = _
  rw [after0_1]
  unfold outsAt0
  rw [out_A, InputValue.iblk_eq]
  obtain ⟨e0, e1, e2, e3⟩ := idx_facts t
  funext y
  obtain ⟨z1, z2, r, rfl⟩ : ∃ (z1 z2 : Fin 1) (r : Fin 256), y = ix3 z1 z2 r := ⟨y 0, y 1, y 2, eq_ix3 y⟩
  show tileOf (rowsLd (grid0.coords t) (m ((c : Thread nD τ).loc main_arg0))) (colsLd (m ((c : Thread nD τ).loc main_arg0)) 0)
      (colsLd (m ((c : Thread nD τ).loc main_arg0)) 1) (colsLd (m ((c : Thread nD τ).loc main_arg0)) 2)
      (colsLd (m ((c : Thread nD τ).loc main_arg0)) 3) (colsLd (m ((c : Thread nD τ).loc main_arg0)) 4)
      (colsLd (m ((c : Thread nD τ).loc main_arg0)) 5) (colsLd (m ((c : Thread nD τ).loc main_arg0)) 6)
      (colsLd (m ((c : Thread nD τ).loc main_arg0)) 7) (ix3 z1 z2 r)
    = rowsArr m c (((cfg0.win 1).blk t).view.emb (ix3 z1 z2 r))
  refine (tile_eq_kerRow (grid0.coords t) (m ((c : Thread nD τ).loc main_arg0)) z1 z2 r).trans ?_
  unfold rowsArr
  refine congrArg (UniformLoss.kerRow (m ((c : Thread nD τ).loc main_arg0))) (Fin.ext ?_)
  show 256 * ((grid0.coords t) 0).val + r.val
    = 256 * (win0_1.index t (0 : Fin 3) * 1 + 1 * z1.val) + (win0_1.index t (2 : Fin 3) * 256 + 1 * r.val)
  rw [e0, e2, e3]
  have h1 : (z1 : Nat) = 0 := by omega
  omega

/-- An index of the array is in point `t`'s block iff each coordinate is in the block's range on its axis. -/
theorem mem_blk (t : Fin cfg0.N) (i : S64x1x256.Idx) :
    i ∈ ((cfg0.win 1).blk t).view.set ↔ ∀ a : Fin 3, win0_1.index t a * S1x1x256.size a ≤ (i a).val
      ∧ (i a).val < win0_1.index t a * S1x1x256.size a + S1x1x256.size a := by
  show i ∈ ((View.whole main_v1).slice (win0_1.rect t)).set ↔ _
  rw [View.set_slice_whole, Rect.mem_set_unit]
  exact Iff.rfl

/-- The 64 blocks tile the array, so it ends holding the row values. -/
theorem final (c : Dev nD) : (dats m 0 c).arrAt 1 cfg0.N = rowsArr m c :=
  (dats m 0 c).arrAt_eq_of_cover 1 (rowsArr m c) (fun t _ => flushed_eq m c t) fun i => by
    have h0 : (i 0).val < 64 := (i 0).isLt
    have h1 : (i 1).val < 1 := (i 1).isLt
    have h2 : (i 2).val < 256 := (i 2).isLt
    refine ⟨⟨(i 0).val, by show _ < grid0.N; rw [N_0]; exact h0⟩, flush0_1 _, ?_⟩
    rw [mem_blk]
    obtain ⟨e0, e1, e2, e3⟩ := idx_facts ⟨(i 0).val, by show _ < grid0.N; rw [N_0]; exact h0⟩
    intro a
    match a with
    | ⟨0, _⟩ =>
      show win0_1.index _ (0 : Fin 3) * 1 ≤ (i 0).val ∧ (i 0).val < win0_1.index _ (0 : Fin 3) * 1 + 1
      rw [e0]; show (i 0).val * 1 ≤ (i 0).val ∧ (i 0).val < (i 0).val * 1 + 1; omega
    | ⟨1, _⟩ =>
      show win0_1.index _ (1 : Fin 3) * 1 ≤ (i 1).val ∧ (i 1).val < win0_1.index _ (1 : Fin 3) * 1 + 1
      rw [e1]; omega
    | ⟨2, _⟩ =>
      show win0_1.index _ (2 : Fin 3) * 256 ≤ (i 2).val ∧ (i 2).val < win0_1.index _ (2 : Fin 3) * 256 + 256
      rw [e2]; omega

end Cert.KernelIdeal.ArrayValue

end
-- ==== Proof.KernelTail.lean ====
/-
  The host's tail after the region, read as a value: the sum of the region's 64 × 1 × 256 result over all its
  axes from zero, divided by 16384; and, once every entry of that result is a row's shifted log-sum-exp, that
  value is the mean of the kernel's row values.
-/
import proofs.«418132_j31619549233204_3_alg».proof.Proof.Gen.KernelIdeal.Frame
import proofs.«418132_j31619549233204_3_alg».proof.Proof.Spec
import Idealize.ShloMosaic.Lib.Pipeline.Value
import Idealize.ShloMosaic.Lib.StableHlo.Run
import Idealize.ShloMosaic.PureOps.Ideal.Laws
import Idealize.ShloMosaic.Lib.ValueIdx

noncomputable section

namespace Cert.KernelIdeal.TailValue

open Cert.KernelIdeal Cert.KernelIdeal.Gen Idealize.ShloMosaic Idealize.ShloMosaic.TcCoe Idealize.SL.Sem

variable (m : (ℓ : Loc nD τ sig) → Buf (Elt Ideal) ℓ)

theorem tail_value (c : Dev nD) (G : Buf (Elt Ideal) ((c : Thread nD τ).loc main_v1)) (hG : (dats m 0 c).arrAt 1 cfg0.N = G) :
    Pipeline.afterTail₀ cfgs (dats m) 0 (V0 m) [hostOps1] c main_v3
      = Host.divf (F := Ideal) (Host.reduceAdd (F := Ideal) G (constant S_ .f32 0x00000000#32) reducesTo_S64x1x256_S_d0_1_2 h_S_) (constant S_ .f32 0x46800000#32) := by
  unfold Pipeline.afterTail₀
  show StableHlo.after hostOps1 _ (Proc.devRef .tc main_v3) = _
  after_results
  rw [(Pipeline.withArrays_arr spec0 launch0.win.arr_inj c _ _ 1).trans hG]

theorem mean_value (G : FVec Ideal S64x1x256 .f32) (x : UniformLoss.Emb) (hG : ∀ i, G i = UniformLoss.kerRow x (UniformLoss.outRow i)) :
    Host.divf (Host.reduceAdd G (constant S_ .f32 0x00000000#32) reducesTo_S64x1x256_S_d0_1_2 h_S_) (constant S_ .f32 0x46800000#32)
      = fun _ => UniformLoss.kerMean x := by
  funext i
  show FloatOps.hostDivf
      (Host.reduceAdd (F := Ideal) G (constant S_ .f32 0x00000000#32) reducesTo_S64x1x256_S_d0_1_2 h_S_ i)
      (constant (F := Ideal) S_ .f32 0x46800000#32 i) = _
  rw [Ideal.hostDivf_def]
  simp only [Host.reduceAdd, Ideal.hostReduceAdd_def]
  rw [Ideal.hostReduceAdd_total reducesTo_S64x1x256_S_d0_1_2 (fun b => b.elim0) G _ i,
    ValueIdx.constant_apply, ValueIdx.constant_apply, Ideal.ofBits_zero_f32,
    Finset.sum_congr rfl (fun j _ => hG j)]
  rfl

end Cert.KernelIdeal.TailValue

end
-- ==== Proof.KernelRun.lean ====
/-
  The kernel's run, read as a value.

  Every weakly fair execution of the idealized kernel terminates with its result buffer holding what the host
  lines after the region compute from the region's array: the sum from zero over the 64 × 1 × 256 array of row
  values, divided by the word of 16384, which is the specification's mean `kerMean` of the argument; the argument is
  left as it was.
-/
import proofs.«418132_j31619549233204_3_alg».proof.Proof.KernelArray
import proofs.«418132_j31619549233204_3_alg».proof.Proof.KernelTail

noncomputable section

open Idealize.ShloMosaic Idealize.ShloMosaic.TcCoe Idealize.SL.Sem

namespace Cert.KernelIdeal.RunValue

open Cert.KernelIdeal Cert.KernelIdeal.Gen

variable (m : (ℓ : Loc nD τ sig) → Buf (Elt Ideal) ℓ) (ρ : Dev nD → PrngReg)

/-- The result buffer after the run is the mean of the kernel's row values of the argument. -/
theorem result_value (c : Dev nD) :
    Pipeline.afterTail₀ cfgs (dats m) 0 (V0 m) [hostOps1] c main_v3
      = fun _ => UniformLoss.kerMean (m ((c : Thread nD τ).loc main_arg0)) :=
  (TailValue.tail_value m c (ArrayValue.rowsArr m c) (ArrayValue.final m c)).trans
    (TailValue.mean_value (ArrayValue.rowsArr m c) (m ((c : Thread nD τ).loc main_arg0)) (fun _ => rfl))

/-- The run: the result at the mean of the row values, the argument unchanged. -/
theorem run : θ_run defs (onTc (τ := τ) (main (F := Ideal))) ⟨m, fun _ => 0, ρ⟩ fun r => ∀ c : Dev nD,
      r.2.mem ((c : Thread nD τ).loc main_v3) = (fun _ => UniformLoss.kerMean (m ((c : Thread nD τ).loc main_arg0)))
      ∧ r.2.mem ((c : Thread nD τ).loc main_arg0) = m ((c : Thread nD τ).loc main_arg0) :=
  (θ_run defs _ _).mono (fun r h c =>
      ⟨((h c).2 main_v3 (Pipeline.mem_restRefs_of main_v3 (by decide) (by decide))).trans (result_value m c),
        ((h c).2 main_arg0 (Pipeline.mem_restRefs_of main_arg0 (by decide) (by decide))).trans (W_main_arg0 m (dats m) c)⟩)
    (run_main m ρ)

end Cert.KernelIdeal.RunValue

end
-- ==== Proof.lean ====
/-
  The uniformity loss: a tiled, shifted log-sum-exp kernel against the plain formula.

  For an array `x` of 16384 unit-norm rows of 128 features the reference computes the mean over rows `R` of
  `log ∑_C exp (⟨x_R, x_C⟩ / T)`, with `T` the binary fraction the single-precision word of `0.07` encodes. The kernel
  tiles the rows by 256, walks the columns in eight chunks of 2048, and uses the shift `c = 1/T`: it sums
  `exp (⟨x_R, x_C⟩ · c - c)`, takes the logarithm and adds `c` back. Its constant `c` is the word nearest to `1/T`; the
  idealized kernel names it the exact reciprocal `2^27 / 9395241` of the reference's `T` (the ten `preserves` conjuncts
  say that this is what the name denotes at each of its ten sites). Over the extended reals, for an input whose
  entries are all real numbers (the precondition), `log (e^(-c) · S) + c = log S` for the positive real sum `S`, the
  eight chunks are all 16384 columns, and the 64 tiles of 256 rows are all 16384 rows, so the two means are equal.
  The three frames are the two programs' generated frame runs and the reference's generated run.
-/
import proofs.«418132_j31619549233204_3_alg».proof.Defs
import proofs.«418132_j31619549233204_3_alg».proof.Proof.Gen.Kernel
import proofs.«418132_j31619549233204_3_alg».proof.Proof.Gen.Kernel.Frame
import proofs.«418132_j31619549233204_3_alg».proof.Proof.Gen.KernelIdeal
import proofs.«418132_j31619549233204_3_alg».proof.Proof.Gen.KernelIdeal.Frame
import proofs.«418132_j31619549233204_3_alg».proof.Proof.Gen.ReferenceIdeal
import proofs.«418132_j31619549233204_3_alg».proof.Proof.Gen.ReferenceIdeal.Run
import proofs.«418132_j31619549233204_3_alg».proof.Proof.Gen.ReferenceIdeal.Read
import proofs.«418132_j31619549233204_3_alg».proof.Proof.Gen.Pre_finite_inputs
import proofs.«418132_j31619549233204_3_alg».proof.Proof.Analysis
import proofs.«418132_j31619549233204_3_alg».proof.Proof.Finite
import proofs.«418132_j31619549233204_3_alg».proof.Proof.RefValue
import proofs.«418132_j31619549233204_3_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- At each of its ten sites the named constant denotes the table's value, the exact reciprocal of the
    reference's temperature. -/
theorem preserves : Cert.preserves_Kernel_KernelIdeal :=
  ⟨IdealRules.named_const.statement Cert.KernelIdeal.κ "inv_T" .f32 0x41649249#32 ((134217728 / 9395241 : ℝ) : EReal) rfl,
   IdealRules.named_const.statement Cert.KernelIdeal.κ "inv_T" .f32 0x41649249#32 ((134217728 / 9395241 : ℝ) : EReal) rfl,
   IdealRules.named_const.statement Cert.KernelIdeal.κ "inv_T" .f32 0x41649249#32 ((134217728 / 9395241 : ℝ) : EReal) rfl,
   IdealRules.named_const.statement Cert.KernelIdeal.κ "inv_T" .f32 0x41649249#32 ((134217728 / 9395241 : ℝ) : EReal) rfl,
   IdealRules.named_const.statement Cert.KernelIdeal.κ "inv_T" .f32 0x41649249#32 ((134217728 / 9395241 : ℝ) : EReal) rfl,
   IdealRules.named_const.statement Cert.KernelIdeal.κ "inv_T" .f32 0x41649249#32 ((134217728 / 9395241 : ℝ) : EReal) rfl,
   IdealRules.named_const.statement Cert.KernelIdeal.κ "inv_T" .f32 0x41649249#32 ((134217728 / 9395241 : ℝ) : EReal) rfl,
   IdealRules.named_const.statement Cert.KernelIdeal.κ "inv_T" .f32 0x41649249#32 ((134217728 / 9395241 : ℝ) : EReal) rfl,
   IdealRules.named_const.statement Cert.KernelIdeal.κ "inv_T" .f32 0x41649249#32 ((134217728 / 9395241 : ℝ) : EReal) rfl,
   IdealRules.named_const.statement Cert.KernelIdeal.κ "inv_T" .f32 0x41649249#32 ((134217728 / 9395241 : ℝ) : EReal) rfl⟩

/-- From arguments that agree, the kernel's result is `kerMean` of the argument and the reference's `refMean`; the
    precondition makes every entry real, and for real entries the two means are equal. -/
theorem algebraic : Cert.algebraic_KernelIdeal_ReferenceIdeal := by
  intro m ρ m' ρ' hpre hagree
  refine ⟨fun c => fun _ => UniformLoss.kerMean (m ((c.tc : Thread Cert.KernelIdeal.nD Cert.KernelIdeal.τ).loc Cert.KernelIdeal.main_arg0)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, hagree c]
  funext _
  exact (UniformLoss.kerMean_eq_refMean _ (Cert.Proof.Finite.allReal_of_pre _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
